-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : IVec S4096x256 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  main_v3
-- ==== Kernel.lean ====
abbrev S4096x256 : Shape := ⟨2, ![4096, 256]⟩
abbrev S1x1 : Shape := ⟨2, ![1, 1]⟩
abbrev S1024x256 : Shape := ⟨2, ![1024, 256]⟩
abbrev S1024 : Shape := ⟨1, ![1024]⟩
abbrev S1x1024 : Shape := ⟨2, ![1, 1024]⟩
abbrev S1 : Shape := ⟨1, ![1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x256, .i32⟩
  | .hbm, ⟨2, _⟩ => ⟨S1x1, .f32⟩
  | .hbm, ⟨3, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .i32⟩
  | .local _ .vmem, ⟨3, _⟩ => ⟨S1024x256, .i32⟩
  | .local _ .vmem, ⟨4, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1x1024 : S1024.ShapeCasts S1x1024
  reduces_S1x1024_S1 : S1x1024.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .i32 = 32 ∨ (Rect.block (s := S4096x256) S1024x256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .i32⟩
  | .hbm, ⟨2, _⟩ => ⟨S_, .i32⟩
  | .hbm, ⟨3, _⟩ => ⟨S4096x256, .i32⟩
  | .hbm, ⟨4, _⟩ => ⟨S4096x256, .i1⟩
  | .hbm, ⟨5, _⟩ => ⟨S4096x256, .f32⟩
  | .hbm, ⟨6, _⟩ => ⟨S4096x256, .f32⟩
  | .hbm, ⟨7, _⟩ => ⟨S_, .f32⟩
  | .hbm, ⟨8, _⟩ => ⟨S_, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096, .f32⟩
  | .hbm, ⟨13, _⟩ => ⟨S4096x256, .f32⟩
  | .hbm, ⟨14, _⟩ => ⟨S_, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_call1_v0 : Ref sig .tc := ⟨.hbm, 15, rfl⟩
abbrev main_call1_v1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  reducesTo_S4096x256_S4096_d1 : S4096x256.ReducesTo [1] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.CaseValues.lean ====
/-
  What the accumulator's one-entry block holds after the body, in each of the body's three control cases, as a value
  of what the body loaded.

  The body adds the current block's partial sum to the accumulator (the second payload, a function of the two input
  blocks and of the accumulator as loaded). At the first grid point it first resets the accumulator to the zero
  block (the first payload) and the accumulation reads that zero back; at the last point it afterwards divides what it
  has just stored by the sample count (the third payload, of the stored sum read back). Each store and each load
  goes through the whole one-entry block, so the last store's payload is what the block holds, and a load after a
  store reads that store's payload.
-/
import proofs.«122532_j65678639890840_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- The offsets of a load or store of a whole block are all zero. -/
theorem origin : (![0, 0] : Fin 2 → Nat) = fun _ => 0 := funext fun a => by fin_cases a <;> rfl

/-- A middle point (neither first nor last): the block ends at the accumulation over what it held. -/
theorem middle_value (c : Dev nD) (i : grid0.Coords) (a1 : Memref sig .tc .vmem S1024x256 .f32) (h1 : a1.IsWhole)
    (a2 : Memref sig .tc .vmem S1024x256 .i32) (h2 : a2.IsWhole) (a3 : Memref sig .tc .vmem S1x1 .f32) (h3 : a3.IsWhole)
    (hc0 : ¬cond0_0 i) (hc1 : ¬cond0_1 i) (x0 : Vec F S1024x256 .f32) (x1 : Vec F S1024x256 .i32) (xo : Vec F S1x1 .f32) :
    out0_B_2 c i a1 h1 a2 h2 a3 h3 hc0 hc1 x0 x1 xo = k0_pay2 x0 x1 xo := by
  unfold out0_B_2
  rw [View.read_writes_eq_canon _ _ _ (cover0_B_2 c i a1 h1 a2 h2 a3 h3 hc0 hc1 x0 x1 xo)]
  unfold kernelRun0_B
  dsimp only
  sl_unfold_words
  rw [View.canon_unit_zero origin]
  simp only [View.readAt_eq_ld, h1.read_unread, h2.read_unread, h3.read_unread,
    View.ld_unit_zero (S := S1024x256) origin, View.ld_unit_zero (S := S1x1) origin]

/-- The first point: the block is reset to the zero block and ends at the accumulation over that. -/
theorem first_value (c : Dev nD) (i : grid0.Coords) (a1 : Memref sig .tc .vmem S1024x256 .f32) (h1 : a1.IsWhole)
    (a2 : Memref sig .tc .vmem S1024x256 .i32) (h2 : a2.IsWhole) (a3 : Memref sig .tc .vmem S1x1 .f32) (h3 : a3.IsWhole)
    (hc0 : cond0_0 i) (hc1 : ¬cond0_1 i) (x0 : Vec F S1024x256 .f32) (x1 : Vec F S1024x256 .i32) :
    out0_A_2 c i a1 h1 a2 h2 a3 h3 hc0 hc1 x0 x1 = k0_pay2 x0 x1 (k0_pay1 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) origin, View.readCov_unit_zero (S := S1x1) _ origin]
  simp only [View.readAt_eq_ld, h1.read_unread, h2.read_unread,
    View.ld_unit_zero (S := S1024x256) origin]

/-- The last point: the block ends at the accumulation over what it held, divided. -/
theorem last_value (c : Dev nD) (i : grid0.Coords) (a1 : Memref sig .tc .vmem S1024x256 .f32) (h1 : a1.IsWhole)
    (a2 : Memref sig .tc .vmem S1024x256 .i32) (h2 : a2.IsWhole) (a3 : Memref sig .tc .vmem S1x1 .f32) (h3 : a3.IsWhole)
    (hc0 : ¬cond0_0 i) (hc1 : cond0_1 i) (x0 : Vec F S1024x256 .f32) (x1 : Vec F S1024x256 .i32) (xo : Vec F S1x1 .f32) :
    out0_C_2 c i a1 h1 a2 h2 a3 h3 hc0 hc1 x0 x1 xo = k0_pay3 (k0_pay2 x0 x1 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1x1) origin, View.readCov_unit_zero (S := S1x1) _ origin]
  simp only [View.readAt_eq_ld, h1.read_unread, h2.read_unread, h3.read_unread,
    View.ld_unit_zero (S := S1024x256) origin, View.ld_unit_zero (S := S1x1) origin]

end Cert.KernelIdeal.Acc

end
-- ==== Proof.RowLoss.lean ====
/-
  The loss this certificate is about, as mathematics over the extended reals.

  For a sample `n` with scores `x n k` and integer labels `y n k` (k < 256), a label word equal to 1 marks a
  positive. The sample's term is

      log (1 + (∑ₖ [y = 1] · exp (-x)) · (∑ₖ [y ≠ 1] · exp x)),

  the brackets being selections between the exponential and zero, and the loss is the sum of the 4096 terms divided
  by 4096. The float words for 1 and 4096 are kept as words: both programs print the same ones, so they are never
  evaluated. The only algebra here is that a sum over 4096 samples is the sum, over four consecutive blocks of 1024
  samples, of the blocks' sums — re-indexing a finite sum in a commutative monoid, which the extended reals are;
  nothing is said about finiteness because nothing needs it.
-/
import Idealize.ShloMosaic.PureOps.Ideal
import Idealize.ShloMosaic.PureOps.Ideal.Laws
import Idealize.ShloMosaic.Lib.ValueIdx

noncomputable section

namespace Cert.Lsep

open Idealize.ShloMosaic

/-- Whether a label word marks a positive: the one-bit result of comparing it with 1. -/
abbrev isPos (w : BitVec 32) : BitVec 1 := IntOp.cmpi .eq w 1#32

/-- The positives' weight of one sample: `exp (-x)` summed over the entries labelled 1. -/
def posWeight (x : Fin 256 → EReal) (y : Fin 256 → BitVec 32) : EReal :=
  ∑ k : Fin 256, Scalar.select (isPos (y k)) (Ideal.exp (-(x k))) (0 : EReal)

/-- The negatives' weight of one sample: `exp x` summed over the entries not labelled 1. -/
def negWeight (x : Fin 256 → EReal) (y : Fin 256 → BitVec 32) : EReal :=
  ∑ k : Fin 256, Scalar.select (isPos (y k)) (0 : EReal) (Ideal.exp (x k))

/-- One sample's term: `log (1 + posWeight · negWeight)`, the 1 as its float word. -/
def rowTerm (x : Fin 256 → EReal) (y : Fin 256 → BitVec 32) : EReal :=
  Ideal.log (Ideal.ofBits .f32 0x3F800000#32 + posWeight x y * negWeight x y)

/-- The loss: the 4096 samples' terms summed and divided by 4096 (as its float word). -/
def meanLoss (X : Fin 4096 → Fin 256 → EReal) (Y : Fin 4096 → Fin 256 → BitVec 32) : EReal :=
  Ideal.div (∑ n : Fin 4096, rowTerm (X n) (Y n)) (Ideal.ofBits .f32 0x45800000#32)

/-- Sample `r` of block `t`, the blocks being 1024 consecutive samples each. -/
def blockRow (t : Fin 4) (r : Fin 1024) : Fin 4096 := ⟨1024 * t.val + r.val, by omega⟩

theorem blockRow_val (t : Fin 4) (r : Fin 1024) : (blockRow t r).val = 1024 * t.val + r.val := rfl

/-- A sum over the 4096 samples is the sum over the four blocks of each block's sum. -/
theorem sum_by_blocks {M : Type} [AddCommMonoid M] (f : Fin 4096 → M) :
    ∑ n : Fin 4096, f n = ∑ t : Fin 4, ∑ r : Fin 1024, f (blockRow t r) := by
  have e : ∑ n : Fin 4096, f n = ∑ p : Fin 4 × Fin 1024, f (finProdFinEquiv p) :=
    (Equiv.sum_comp (finProdFinEquiv (m := 4) (n := 1024)) f).symm
  rw [e, Fintype.sum_prod_type]
  refine Finset.sum_congr rfl fun t _ => Finset.sum_congr rfl fun r _ => congrArg f (Fin.ext ?_)
  show r.val + 1024 * t.val = 1024 * t.val + r.val
  omega

/-- One block's sum of sample terms. -/
def blockSum (X : Fin 4096 → Fin 256 → EReal) (Y : Fin 4096 → Fin 256 → BitVec 32) (t : Fin 4) : EReal :=
  ∑ r : Fin 1024, rowTerm (X (blockRow t r)) (Y (blockRow t r))

/-- Accumulating the four blocks' sums one after the other from zero, then dividing, is the loss. -/
theorem chain_eq_meanLoss (X : Fin 4096 → Fin 256 → EReal) (Y : Fin 4096 → Fin 256 → BitVec 32) :
    Ideal.div ((((0 + blockSum X Y 0) + blockSum X Y 1) + blockSum X Y 2) + blockSum X Y 3)
        (Ideal.ofBits .f32 0x45800000#32)
      = meanLoss X Y := by
  unfold meanLoss
  rw [sum_by_blocks, Fin.sum_univ_four, zero_add]
  rfl

end Cert.Lsep

end
-- ==== Proof.BlockTerm.lean ====
/-
  The body's arithmetic read at the accumulator's one entry, over the extended reals.

  The accumulation payload adds to the accumulator the current block's partial sum: the 1024 rows' terms
  `log (1 + posWeight · negWeight)`, each weight a sum along the row's 256 lanes of a selection between an
  exponential and zero. The kernel writes `exp (0 - x)` for the positives' exponential, which is `exp (-x)` once the
  zero word is read as the number zero; its row sums and its sum over the rows are plain finite sums, and the
  reshapes between a 1024-vector, a 1 × 1024 matrix, a 1-vector and the 1 × 1 block only rename the one index.
  The division payload divides the entry by the sample count's float word.
-/
import proofs.«122532_j65678639890840_1_alg».proof.Proof.Gen.KernelIdeal.Skeleton
import proofs.«122532_j65678639890840_1_alg».proof.Proof.RowLoss
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Acc

open Cert.KernelIdeal Cert.KernelIdeal.Gen Idealize.ShloMosaic.ValueIdx

/-- The sum along the lanes of a 1024 × 256 block, at row `r`: the sum of that row's 256 entries. -/
theorem laneSum_apply (v : FVec Ideal S1024x256 .f32) (h : S1024x256.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ k : Fin 256, v (ix2 r k) :=
  (Ideal.multiReduction_add_single v _ h hφ hacc (ix1 r)).trans
    (Finset.sum_congr rfl fun k _ => congrArg v (funext fun a => Fin.ext (by match a with | ⟨0, _⟩ => rfl | ⟨1, _⟩ => rfl)))

/-- The sum along the one row of a 1 × 1024 matrix: the sum of its 1024 entries. -/
theorem rowSum_apply (v : FVec Ideal S1x1024 .f32) (h : S1x1024.Reduces [1] S1) (hφ : FKind.Formats .f32)
    (hacc : (0x00000000#32 : BitVec 32) = FKind.add.neutral .f32 hφ) (p : S1.Idx) (q : Fin 1) (hp : p = ix1 q) :
    multiReduction .add [1] S1 v 0x00000000#32 h hφ hacc p = ∑ r : Fin 1024, v (ix2 q r) := by
  subst hp
  exact (Ideal.multiReduction_add_single v _ h hφ hacc (ix1 q)).trans
    (Finset.sum_congr rfl fun r _ => congrArg v (funext fun a => Fin.ext (by match a with | ⟨0, _⟩ => rfl | ⟨1, _⟩ => rfl)))

/-- The kernel's vector of row terms, at row `r`, is the sample term of that row of the two blocks. -/
theorem rowTerm_apply (x0 : FVec Ideal S1024x256 .f32) (x1 : IVec S1024x256 32) (h : S1024x256.Reduces [1] S1024)
    (hφ : FKind.Formats .f32) (hacc : (0x00000000#32 : BitVec 32) = FKind.add.neutral .f32 hφ)
    (p : S1024.Idx) (r : Fin 1024) (hp : p = ix1 r) :
    log (F := Ideal) (addf (F := Ideal) (broadcast S1024 (FloatOps.ofBits (F := Ideal) .f32 0x3F800000#32))
        (mulf (F := Ideal)
          (multiReduction (F := Ideal) .add [1] S1024
            (select (cmpi .eq x1 (broadcast S1024x256 1#32))
              (exp (F := Ideal) (subf (F := Ideal) (broadcast S1024x256 (FloatOps.ofBits (F := Ideal) .f32 0x00000000#32)) x0))
              (broadcast S1024x256 (FloatOps.ofBits (F := Ideal) .f32 0x00000000#32)))
            0x00000000#32 h hφ hacc)
          (multiReduction (F := Ideal) .add [1] S1024
            (select (cmpi .eq x1 (broadcast S1024x256 1#32))
              (broadcast S1024x256 (FloatOps.ofBits (F := Ideal) .f32 0x00000000#32)) (exp (F := Ideal) x0))
            0x00000000#32 h hφ hacc))) p
      = Lsep.rowTerm (fun k => x0 (ix2 r k)) (fun k => x1 (ix2 r k)) := by
  subst hp
  unfold Lsep.rowTerm Lsep.posWeight Lsep.negWeight
  refine congrArg (fun z : EReal => Ideal.log (Ideal.ofBits .f32 0x3F800000#32 + z)) ?_
  refine congrArg₂ (fun a b : EReal => a * b) ((laneSum_apply _ h hφ hacc r).trans ?_) ((laneSum_apply _ h hφ hacc r).trans ?_)
  · refine Finset.sum_congr rfl fun k _ => ?_
    show Scalar.select (IntOp.cmpi .eq (x1 (ix2 r k)) 1#32)
        (Ideal.exp (Ideal.ofBits .f32 0x00000000#32 - x0 (ix2 r k))) (Ideal.ofBits .f32 0x00000000#32)
      = Scalar.select (IntOp.cmpi .eq (x1 (ix2 r k)) 1#32) (Ideal.exp (-(x0 (ix2 r k)))) 0
    rw [Ideal.ofBits_zero_f32, zero_sub]
  · refine Finset.sum_congr rfl fun k _ => ?_
    show Scalar.select (IntOp.cmpi .eq (x1 (ix2 r k)) 1#32)
        (Ideal.ofBits .f32 0x00000000#32) (Ideal.exp (x0 (ix2 r k)))
      = Scalar.select (IntOp.cmpi .eq (x1 (ix2 r k)) 1#32) 0 (Ideal.exp (x0 (ix2 r k)))
    rw [Ideal.ofBits_zero_f32]

/-- The accumulation payload at its one entry: the accumulator's entry plus the block's sum of row terms. -/
theorem accumulate_apply (x0 : Vec Ideal S1024x256 .f32) (x1 : Vec Ideal S1024x256 .i32) (acc : Vec Ideal S1x1 .f32) (j : S1x1.Idx) :
    k0_pay2 (F := Ideal) x0 x1 acc j
      = acc j + ∑ r : Fin 1024, Lsep.rowTerm (fun k => x0 (ix2 r k)) (fun k => x1 (ix2 r k)) := by
  unfold k0_pay2
  dsimp only
  refine (addf_apply _ _ j).trans (congrArg₂ (fun a b : EReal => a + b) (congrFun (shapeCast_self acc _) j) ?_)
  rw [broadcast_apply]
  unfold extractAt
  refine (shapeCast_addUnit_apply ![1] _ _ _).trans ?_
  refine (rowSum_apply _ _ _ _ _ (0 : Fin 1) (funext fun a => Fin.ext (by match a with | ⟨0, _⟩ => rfl))).trans ?_
  refine Finset.sum_congr rfl fun r _ => ?_
  refine (shapeCast_addUnit_apply ![1024] _ _ (ix2 (0 : Fin 1) r)).trans ?_
  exact rowTerm_apply x0 x1 _ _ _ _ r (funext fun a => Fin.ext (by match a with | ⟨0, _⟩ => rfl))

/-- The reset payload at its one entry: zero. -/
theorem reset_apply (j : S1x1.Idx) : k0_pay1 (F := Ideal) j = 0 := by
  show Ideal.ofBits .f32 0x00000000#32 = 0
  exact Ideal.ofBits_zero_f32

/-- The division payload at its one entry: the entry divided by the sample count's float word. -/
theorem divide_apply (v : Vec Ideal S1x1 .f32) (j : S1x1.Idx) :
    k0_pay3 (F := Ideal) v j = Ideal.div (v j) (Ideal.ofBits .f32 0x45800000#32) := by
  unfold k0_pay3
  refine (divf_apply _ _ j).trans ?_
  rw [shapeCast_self]
  rfl

end Cert.KernelIdeal.Acc

end
-- ==== Proof.RunningSum.lean ====
/-
  What the accumulator's block holds after each grid point, at the exact instance.

  Point `t` stages rows `1024 t … 1024 t + 1023` of the two argument arrays. After point 0 the block holds
  `0 + B₀`, after point `n + 1 < 3` what it held plus `Bₙ₊₁`, and after point 3 what it held plus `B₃`, divided by
  the sample count — `Bₜ` the sum of the sample terms of block `t`'s rows. By induction on the point, the three
  control cases read through their values. Read against the argument arrays themselves, `Bₜ` is the loss's block
  sum, so the last point leaves the loss.
-/
import proofs.«122532_j65678639890840_1_alg».proof.Proof.Gen.KernelIdeal.Frame
import proofs.«122532_j65678639890840_1_alg».proof.Proof.CaseValues
import proofs.«122532_j65678639890840_1_alg».proof.Proof.BlockTerm

noncomputable section

open Idealize.ShloMosaic Idealize.ShloMosaic.TcCoe Idealize.SL.Sem
open Idealize.ShloMosaic.Pipeline (Dat)

namespace Cert.KernelIdeal.Acc

open Cert.KernelIdeal Cert.KernelIdeal.Gen

open Idealize.ShloMosaic.ValueIdx

variable (m : (ℓ : Loc nD τ sig) → Buf (Elt Ideal) ℓ)

/-- The scores' row block staged at point `t`. -/
abbrev scoreBlk (c : Dev nD) (t : Fin cfg0.N) : Vec Ideal S1024x256 .f32 := iblk m c 0 t
/-- The labels' row block staged at point `t`. -/
abbrev labelBlk (c : Dev nD) (t : Fin cfg0.N) : Vec Ideal S1024x256 .i32 := iblk m c 1 t

/-- The sum of the sample terms of the rows staged at point `t`. -/
def blockTotal (c : Dev nD) (t : Fin cfg0.N) : EReal :=
  ∑ r : Fin 1024, Lsep.rowTerm (fun k => scoreBlk m c t (ix2 r k)) (fun k => labelBlk m c t (ix2 r k))

/-- The block totals accumulated from zero, in point order, up to and including point `n`. -/
def running (c : Dev nD) : (n : ℕ) → n < cfg0.N → EReal
  | 0, h => 0 + blockTotal m c ⟨0, h⟩
  | n + 1, h => running c n (Nat.lt_of_succ_lt h) + blockTotal m c ⟨n + 1, h⟩

/-- Before the last point the block holds the running total. -/
theorem before_last (c : Dev nD) : ∀ (n : ℕ) (h : n < cfg0.N), n < 3 → outsAt0 m c n h = fun _ => running m c n h
  | 0, h, _ => by
    refine (outsAt0_A m c ⟨0, h⟩ rfl (by dsimp only; omega)).trans ?_
    refine (first_value c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) _ _ (scoreBlk m c ⟨0, h⟩) (labelBlk m c ⟨0, h⟩)).trans ?_
    funext j
    refine (accumulate_apply (scoreBlk m c ⟨0, h⟩) (labelBlk m c ⟨0, h⟩) (k0_pay1 (F := Ideal)) j).trans ?_
    rw [reset_apply]
    rfl
  | n + 1, h, h3 => by
    have hB0 : ¬(⟨n + 1, h⟩ : Fin cfg0.N).val % 4 = 0 := by dsimp only; omega
    have hB1 : ¬(⟨n + 1, h⟩ : Fin cfg0.N).val % 4 = 3 := by dsimp only; omega
    refine (outsAt0_B m c ⟨n + 1, h⟩ hB0 hB1).trans ?_
    refine (middle_value c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) _ _ (scoreBlk m c ⟨n + 1, h⟩) (labelBlk m c ⟨n + 1, h⟩)
      (outsAt0 m c ((⟨n + 1, h⟩ : Fin cfg0.N).val - 1) (Nat.lt_of_le_of_lt (Nat.sub_le _ _) (⟨n + 1, h⟩ : Fin cfg0.N).isLt))).trans ?_
    funext j
    refine (accumulate_apply (scoreBlk m c ⟨n + 1, h⟩) (labelBlk m c ⟨n + 1, h⟩) _ j).trans ?_
    show outsAt0 m c n _ j + blockTotal m c ⟨n + 1, h⟩ = running m c n _ + blockTotal m c ⟨n + 1, h⟩
    rw [before_last c n (Nat.lt_of_succ_lt h) (by omega)]

/-- After the last point the block holds the total divided by the sample count. -/
theorem at_last (c : Dev nD) (h : 3 < cfg0.N) :
    outsAt0 m c 3 h = fun _ => Ideal.div (running m c 3 h) (Ideal.ofBits .f32 0x45800000#32) := by
  have hC0 : ¬(⟨3, h⟩ : Fin cfg0.N).val % 4 = 0 := by dsimp only; omega
  have hC1 : (⟨3, h⟩ : Fin cfg0.N).val % 4 = 3 := rfl
  refine (outsAt0_C m c ⟨3, h⟩ hC0 hC1).trans ?_
  refine (last_value c (grid0.coords ⟨3, h⟩) (ms0_0 ⟨3, h⟩) (hs0_0 ⟨3, h⟩) (ms0_1 ⟨3, h⟩) (hs0_1 ⟨3, h⟩)
    (ms0_2 ⟨3, h⟩) (hs0_2 ⟨3, h⟩) _ _ (scoreBlk m c ⟨3, h⟩) (labelBlk m c ⟨3, h⟩)
    (outsAt0 m c ((⟨3, h⟩ : Fin cfg0.N).val - 1) (Nat.lt_of_le_of_lt (Nat.sub_le _ _) (⟨3, h⟩ : Fin cfg0.N).isLt))).trans ?_
  funext j
  refine (divide_apply _ j).trans ?_
  refine congrArg (fun z : EReal => Ideal.div z (Ideal.ofBits .f32 0x45800000#32)) ?_
  refine (accumulate_apply (scoreBlk m c ⟨3, h⟩) (labelBlk m c ⟨3, h⟩) _ j).trans ?_
  show outsAt0 m c 2 _ j + blockTotal m c ⟨3, h⟩ = running m c 2 _ + blockTotal m c ⟨3, h⟩
  rw [before_last m c 2 (Nat.lt_of_succ_lt h) (by decide)]

end Cert.KernelIdeal.Acc

end
-- ==== Proof.KernelLoss.lean ====
/-
  The idealized kernel ends with the loss in its result.

  Row `r` of the block staged at point `t` is row `1024 t + r` of the argument array, so the block totals are the
  loss's block sums and the running total after the last point, divided, is the loss. The accumulator's 1 × 1 block
  is written back once, after the last point, and is the whole 1 × 1 result array of the call; the program's one
  host line afterwards reshapes that array to a scalar, which keeps its one entry.
-/
import proofs.«122532_j65678639890840_1_alg».proof.Proof.Gen.KernelIdeal.Frame
import proofs.«122532_j65678639890840_1_alg».proof.Proof.RunningSum
import Idealize.ShloMosaic.Lib.StableHlo.Run

noncomputable section

open Idealize.ShloMosaic Idealize.ShloMosaic.TcCoe Idealize.SL.Sem
open Idealize.ShloMosaic.Pipeline (Dat)

namespace Cert.KernelIdeal.Acc

open Cert.KernelIdeal Cert.KernelIdeal.Gen

open Idealize.ShloMosaic.ValueIdx

variable (m : (ℓ : Loc nD τ sig) → Buf (Elt Ideal) ℓ) (ρ : Dev nD → PrngReg)

/-- The scores argument, by sample and lane. -/
abbrev scores (c : Dev nD) : Fin 4096 → Fin 256 → EReal := fun n k => m ((c : Thread nD τ).loc main_arg0) (ix2 n k)
/-- The labels argument, by sample and lane. -/
abbrev labels (c : Dev nD) : Fin 4096 → Fin 256 → BitVec 32 := fun n k => m ((c : Thread nD τ).loc main_arg1) (ix2 n k)

/-- Both inputs' blocks at point `t` start at row block `t`, lane block 0 — decided over the four points. -/
theorem block_origin : ∀ t : Fin cfg0.N,
    (win0_0.index t (0 : Fin 2) = t.val ∧ win0_0.index t (1 : Fin 2) = 0)
      ∧ (win0_1.index t (0 : Fin 2) = t.val ∧ win0_1.index t (1 : Fin 2) = 0) :=
  (by decide +kernel : ∀ t : Fin grid0.N,
    (win0_0.index t (0 : Fin 2) = t.val ∧ win0_0.index t (1 : Fin 2) = 0)
      ∧ (win0_1.index t (0 : Fin 2) = t.val ∧ win0_1.index t (1 : Fin 2) = 0))

/-- An entry of the scores' block at point `t` is the argument's entry `1024 t` rows further down. -/
theorem scoreBlk_apply (c : Dev nD) (t : Fin cfg0.N) (s : Fin 4) (hs : s.val = t.val) (r : Fin 1024) (k : Fin 256) :
    scoreBlk m c t (ix2 r k) = scores m c (Lsep.blockRow s r) k := by
  obtain ⟨⟨h0, h1⟩, -⟩ := block_origin t
  show iblk m c 0 t (ix2 r k) = _
  unfold iblk
  rw [View.read_apply]
  show m ((c : Thread nD τ).loc main_arg0) _ = m ((c : Thread nD τ).loc main_arg0) _
  refine congrArg (m ((c : Thread nD τ).loc main_arg0)) (funext fun a => Fin.ext ?_)
  match a with
  | ⟨0, _⟩ => show win0_0.index t 0 * 1024 + 1 * r.val = 1024 * s.val + r.val; rw [h0, hs]; omega
  | ⟨1, _⟩ => show win0_0.index t 1 * 256 + 1 * k.val = k.val; rw [h1]; omega

/-- The same for the labels' block. -/
theorem labelBlk_apply (c : Dev nD) (t : Fin cfg0.N) (s : Fin 4) (hs : s.val = t.val) (r : Fin 1024) (k : Fin 256) :
    labelBlk m c t (ix2 r k) = labels m c (Lsep.blockRow s r) k := by
  obtain ⟨-, ⟨h0, h1⟩⟩ := block_origin t
  show iblk m c 1 t (ix2 r k) = _
  unfold iblk
  rw [View.read_apply]
  show m ((c : Thread nD τ).loc main_arg1) _ = m ((c : Thread nD τ).loc main_arg1) _
  refine congrArg (m ((c : Thread nD τ).loc main_arg1)) (funext fun a => Fin.ext ?_)
  match a with
  | ⟨0, _⟩ => show win0_1.index t 0 * 1024 + 1 * r.val = 1024 * s.val + r.val; rw [h0, hs]; omega
  | ⟨1, _⟩ => show win0_1.index t 1 * 256 + 1 * k.val = k.val; rw [h1]; omega

/-- The total of the rows staged at point `t` is the loss's sum over block `t`. -/
theorem blockTotal_eq (c : Dev nD) (t : Fin cfg0.N) (s : Fin 4) (hs : s.val = t.val) :
    blockTotal m c t = Lsep.blockSum (scores m c) (labels m c) s := by
  unfold blockTotal Lsep.blockSum
  refine Finset.sum_congr rfl fun r _ => ?_
  refine congrArg₂ Lsep.rowTerm (funext fun k => scoreBlk_apply m c t s hs r k) (funext fun k => labelBlk_apply m c t s hs r k)

/-- The running total after the last point, divided, is the loss. -/
theorem total_eq_loss (c : Dev nD) (h : 3 < cfg0.N) :
    Ideal.div (running m c 3 h) (Ideal.ofBits .f32 0x45800000#32) = Lsep.meanLoss (scores m c) (labels m c) := by
  rw [← Lsep.chain_eq_meanLoss]
  refine congrArg (fun z : EReal => Ideal.div z (Ideal.ofBits .f32 0x45800000#32)) ?_
  show ((0 + blockTotal m c ⟨0, _⟩) + blockTotal m c ⟨1, _⟩ + blockTotal m c ⟨2, _⟩) + blockTotal m c ⟨3, _⟩ = _
  rw [blockTotal_eq m c ⟨0, _⟩ 0 rfl, blockTotal_eq m c ⟨1, _⟩ 1 rfl, blockTotal_eq m c ⟨2, _⟩ 2 rfl,
    blockTotal_eq m c ⟨3, _⟩ 3 rfl]

/-- The call's 1 × 1 result array with the loss in its one entry. -/
abbrev lossArray (c : Dev nD) : Buf (Elt Ideal) ((c : Thread nD τ).loc main_v0) :=
  fun _ => Lsep.meanLoss (scores m c) (labels m c)

/-- The one write-back, after the last point, writes the loss. -/
theorem flushed_eq (c : Dev nD) (t : Fin cfg0.N) (hf : (cfg0.win 2).flush t = true) :
    (dats m 0 c).flushed 2 t = ((cfg0.win 2).blk t).view.read (Elt Ideal) (lossArray m c) := by
  have hN : cfg0.N = 4 := N_0
  have h3 : t.val = 3 := by have := (flush0_2 t).mp hf; have := t.isLt; omega
  obtain rfl : t = t0_3 := Fin.ext h3
  show (cfg0.win 2).cut (grid0.coords t0_3) ((dats m 0 c).after 2 t0_3) = _
  rw [after0_2]
  show outsAt0 m c 3 _ = _
  refine (at_last m c _).trans ?_
  funext x
  refine (total_eq_loss m c _).trans ?_
  rfl

/-- The last point's block of the result array is the whole array. -/
theorem last_block_covers (c : Dev nD) (i : ((cfg0.win 2).arr.view.loc (c.tc : Thread nD τ)).2.ty.Idx) :
    i ∈ ((cfg0.win 2).blk t0_3).view.set := by
  show i ∈ ((View.whole main_v0).slice (win0_2.rect t0_3)).set
  rw [View.set_slice_whole, Rect.mem_set_unit]
  intro a
  have h0 : (i 0 : Nat) < 1 := (i 0).isLt
  have h1 : (i 1 : Nat) < 1 := (i 1).isLt
  match a with
  | ⟨0, _⟩ =>
    show win0_2.index t0_3 0 * win0_2.size 0 ≤ (i 0 : Nat) ∧ (i 0 : Nat) < win0_2.index t0_3 0 * win0_2.size 0 + win0_2.xsize (grid0.coords t0_3) 0
    rw [show win0_2.index t0_3 0 * win0_2.size 0 = 0 from by decide +kernel, show win0_2.xsize (grid0.coords t0_3) 0 = 1 from by decide +kernel]
    omega
  | ⟨1, _⟩ =>
    show win0_2.index t0_3 1 * win0_2.size 1 ≤ (i 1 : Nat) ∧ (i 1 : Nat) < win0_2.index t0_3 1 * win0_2.size 1 + win0_2.xsize (grid0.coords t0_3) 1
    rw [show win0_2.index t0_3 1 * win0_2.size 1 = 0 from by decide +kernel, show win0_2.xsize (grid0.coords t0_3) 1 = 1 from by decide +kernel]
    omega

/-- So the call's result array ends holding the loss. -/
theorem final_array (c : Dev nD) : (dats m 0 c).arrAt 2 cfg0.N = lossArray m c :=
  (dats m 0 c).arrAt_eq_of_cover 2 (lossArray m c) (flushed_eq m c) fun i =>
    ⟨t0_3, (flush0_2 t0_3).mpr rfl, last_block_covers c i⟩

/-- The program's scalar result, after the reshape of the call's result array: the loss. -/
theorem result_eq (c : Dev nD) :
    Pipeline.afterTail₀ cfgs (dats m) 0 (V0 m) [hostOps1] c main_v1 = fun _ => Lsep.meanLoss (scores m c) (labels m c) := by
  unfold Pipeline.afterTail₀
  show StableHlo.after hostOps1 _ (Proc.devRef .tc main_v1) = _
  after_results
  rw [Pipeline.withArrays_arr spec0 launch0.win.arr_inj c _ _ 2, final_array]
  rfl

/-- The run, read: the result at the loss of the two arguments, the arguments unchanged. -/
theorem run : θ_run defs (onTc (τ := τ) (main (F := Ideal))) ⟨m, fun _ => 0, ρ⟩ fun r => ∀ c : Dev nD,
      r.2.mem ((c.tc : Thread nD τ).loc main_v1) = (fun _ => Lsep.meanLoss (scores m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Acc

end
-- ==== Proof.RefLoss.lean ====
/-
  The reference computes the loss: its stages, read one at a time at an index, are the positives' and negatives'
  weights of each sample, the sample terms, their sum over all 4096 samples from a zero initial value, and the
  quotient by the sample count. The host's zero initial values are the number zero, so each `0 + ∑` is the sum; the
  host's negation, exponential and logarithm are the exact ones.
-/
import proofs.«122532_j65678639890840_1_alg».proof.Proof.Gen.ReferenceIdeal.Read
import proofs.«122532_j65678639890840_1_alg».proof.Proof.RowLoss
import Idealize.ShloMosaic.Lib.ValueIdx
import Idealize.ShloMosaic.PureOps.Ideal.Laws

noncomputable section

open Idealize.ShloMosaic Idealize.ShloMosaic.TcCoe Idealize.SL.Sem

namespace Cert.ReferenceIdeal.Loss

open Cert.ReferenceIdeal Cert.ReferenceIdeal.Gen Cert.ReferenceIdeal.Read Idealize.ShloMosaic.ValueIdx

/-- The selected positives' exponential at one entry. -/
theorem posEntry (x0 : (⟨S4096x256, .f32⟩ : BufTy).Contents (Elt Ideal)) (x1 : (⟨S4096x256, .i32⟩ : BufTy).Contents (Elt Ideal))
    (i : S4096x256.Idx) :
    val_main_v4 (F := Ideal) x0 x1 i = Scalar.select (Lsep.isPos (x1 i)) (Ideal.exp (-(x0 i))) (0 : EReal) := by
  rw [val_main_v4_apply, val_main_v1_apply, val_main_v0_apply, val_main_c_apply, val_main_v3_apply, val_main_v2_apply,
    val_main_call0_v1_apply, val_main_call0_v0_apply, val_main_cst_apply]
  simp only [Ideal.hostUnary_exp_def, Ideal.hostNegf_def, Ideal.negf_def, Ideal.ofBits_def, Ideal.ofBits_zero_f32]

/-- The selected negatives' exponential at one entry. -/
theorem negEntry (x0 : (⟨S4096x256, .f32⟩ : BufTy).Contents (Elt Ideal)) (x1 : (⟨S4096x256, .i32⟩ : BufTy).Contents (Elt Ideal))
    (i : S4096x256.Idx) :
    val_main_v7 (F := Ideal) x0 x1 i = Scalar.select (Lsep.isPos (x1 i)) (0 : EReal) (Ideal.exp (x0 i)) := by
  rw [val_main_v7_apply, val_main_v1_apply, val_main_v0_apply, val_main_c_apply, val_main_v6_apply,
    val_main_call1_v1_apply, val_main_call1_v0_apply, val_main_cst_1_apply]
  simp only [Ideal.hostUnary_exp_def, Ideal.ofBits_def, Ideal.ofBits_zero_f32]

/-- The index the row sums read at sample `n`, lane `k`. -/
theorem laneIdx5 (n : Fin 4096) (k : Fin 256) : idx_main_v5 (ix1 n) k = ix2 n k :=
  funext fun a => by match a with | ⟨0, _⟩ => rfl | ⟨1, _⟩ => rfl
theorem laneIdx8 (n : Fin 4096) (k : Fin 256) : idx_main_v8 (ix1 n) k = ix2 n k :=
  funext fun a => by match a with | ⟨0, _⟩ => rfl | ⟨1, _⟩ => rfl

/-- The sample term at sample `n`. -/
theorem term_apply (x0 : (⟨S4096x256, .f32⟩ : BufTy).Contents (Elt Ideal)) (x1 : (⟨S4096x256, .i32⟩ : BufTy).Contents (Elt Ideal))
    (n : Fin 4096) :
    val_main_v12 (F := Ideal) x0 x1 (ix1 n) = Lsep.rowTerm (fun k => x0 (ix2 n k)) (fun k => x1 (ix2 n k)) := by
  rw [val_main_v12_apply, val_main_v11_apply, val_main_v10_apply, val_main_cst_3_apply, val_main_v9_apply,
    val_main_v5_apply, val_main_v8_apply, val_main_cst_0_apply, val_main_cst_2_apply]
  simp only [laneIdx5, laneIdx8, posEntry, negEntry, Ideal.hostUnary_log_def, Ideal.addf_def, Ideal.mulf_def,
    Ideal.ofBits_def, Ideal.ofBits_zero_f32, zero_add]
  rfl

/-- The reference's result is the loss of its two arguments. -/
theorem result_apply (x0 : (⟨S4096x256, .f32⟩ : BufTy).Contents (Elt Ideal)) (x1 : (⟨S4096x256, .i32⟩ : BufTy).Contents (Elt Ideal))
    (i : S_.Idx) :
    val_main_v14 (F := Ideal) x0 x1 i = Lsep.meanLoss (fun n k => x0 (ix2 n k)) (fun n k => x1 (ix2 n k)) := by
  rw [val_main_v14_apply, val_main_v13_apply, val_main_cst_4_apply, val_main_cst_5_apply]
  simp only [Ideal.hostDivf_def, Ideal.ofBits_def, Ideal.ofBits_zero_f32, zero_add]
  unfold Lsep.meanLoss
  refine congrArg (fun z : EReal => Ideal.div z (Ideal.ofBits .f32 0x45800000#32)) ?_
  have e : ∑ j : S4096.Idx, val_main_v12 (F := Ideal) x0 x1 j = ∑ n : Fin 4096, val_main_v12 (F := Ideal) x0 x1 (ix1 n) :=
    (Equiv.sum_comp (⟨fun n : Fin 4096 => (ix1 n : S4096.Idx), fun j => j 0, fun _ => rfl, fun j => (eq_ix1 j).symm⟩ : Fin 4096 ≃ S4096.Idx)
      (val_main_v12 (F := Ideal) x0 x1)).symm
  rw [e]
  exact Finset.sum_congr rfl fun n _ => term_apply x0 x1 n

end Cert.ReferenceIdeal.Loss

end
-- ==== Proof.lean ====
/-
  The label-ranking loss of 4096 samples with 256 scores and integer labels each: per sample
  `log (1 + (∑ over labels equal to 1 of exp (-x)) · (∑ over the other labels of exp x))`, averaged over the samples.

  The kernel walks the samples in four blocks of 1024 rows. At each grid point it sums that block's sample terms and
  adds the sum to a one-entry accumulator that stays resident across the grid — zeroed at the first point, divided by
  4096 at the last, written back once — and the program reshapes the 1 × 1 result to a scalar. The reference computes
  every sample's term at once, sums all 4096 and divides by 4096. Read over the extended reals (float operations
  exact, the kernel's and the host's exponential, logarithm and quotient the same functions, `0 - x` the negation)
  the two results are one number: the sum over 4096 samples is the sum of the four blocks' sums, a re-indexing of a
  finite sum that needs only that addition is commutative and associative, so the inputs' finiteness is never used.

  The three programs' frames: the two kernels' from their generated frame runs, the reference's from its generated
  run. The idealization rewrote nothing, so `preserves` has nothing to state.
-/
import proofs.«122532_j65678639890840_1_alg».proof.Defs
import proofs.«122532_j65678639890840_1_alg».proof.Proof.Gen.Kernel
import proofs.«122532_j65678639890840_1_alg».proof.Proof.Gen.Kernel.Skeleton
import proofs.«122532_j65678639890840_1_alg».proof.Proof.Gen.Kernel.Launch
import proofs.«122532_j65678639890840_1_alg».proof.Proof.Gen.Kernel.Points
import proofs.«122532_j65678639890840_1_alg».proof.Proof.Gen.Kernel.Frame
import proofs.«122532_j65678639890840_1_alg».proof.Proof.Gen.KernelIdeal
import proofs.«122532_j65678639890840_1_alg».proof.Proof.Gen.KernelIdeal.Skeleton
import proofs.«122532_j65678639890840_1_alg».proof.Proof.Gen.KernelIdeal.Launch
import proofs.«122532_j65678639890840_1_alg».proof.Proof.Gen.KernelIdeal.Points
import proofs.«122532_j65678639890840_1_alg».proof.Proof.Gen.KernelIdeal.Frame
import proofs.«122532_j65678639890840_1_alg».proof.Proof.Gen.ReferenceIdeal
import proofs.«122532_j65678639890840_1_alg».proof.Proof.Gen.Pre_finite_inputs
import proofs.«122532_j65678639890840_1_alg».proof.Proof.Gen.ReferenceIdeal.Run
import proofs.«122532_j65678639890840_1_alg».proof.Proof.Gen.ReferenceIdeal.Read
import proofs.«122532_j65678639890840_1_alg».proof.Proof.KernelLoss
import proofs.«122532_j65678639890840_1_alg».proof.Proof.RefLoss
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the loss of the same two arguments in their scalar result. -/
theorem algebraic : Cert.algebraic_KernelIdeal_ReferenceIdeal := by
  intro m ρ m' ρ' _ hagree
  refine ⟨fun c _ => Cert.Lsep.meanLoss (Cert.KernelIdeal.Acc.scores m c) (Cert.KernelIdeal.Acc.labels m c),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq]
  funext i
  rw [Cert.ReferenceIdeal.Loss.result_apply, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
